-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 57
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S1x128, .f32⟩
  | .hbm, ⟨56, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000, .f32⟩
  | .hbm, ⟨74, _⟩ => ⟨S100000x1, .f32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_call2_v0 : Ref sig .tc := ⟨.hbm, 71, rfl⟩
abbrev main_call2_cst : Ref sig .tc := ⟨.hbm, 72, rfl⟩
abbrev main_call2_v1 : Ref sig .tc := ⟨.hbm, 73, rfl⟩
abbrev main_call2_v2 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibGraphConv.lean ====
/-
  General facts about one graph-convolution layer read on the extended reals, independent of any program.

  The layer: from a matrix A of neighbour means and the node features X (both M×K), two weight matrices W, W' (K×N) and a
  bias b (N entries), entry (p, q) of the result is
      (Σ_k A(p,k)·W(k,q) + Σ_k X(p,k)·W'(k,q)) + b(q),
  clamped below at zero when the layer has a rectifier (`layer`).
  * A kernel that multiplies a row tile of A and of X by the weights into zero accumulators, adds the two products, adds
    the bias row copied down the tile and takes the maximum with zero computes, at a tile entry, this expression of the
    tile's rows (`tile_apply`).
  * The host's form — (A·W + b) + X·W', the bias copied along the rows, then the maximum with a zero splat — is the same
    function: only the order of the two additions differs, and addition of extended reals is commutative and associative
    (`host_layer_eq`, `host_layer_relu_eq`).
  * The neighbour mean: a sum array S divided entrywise by the column max(deg, 1) is S times the column 1/max(deg, 1),
    because max(deg, 1) ≥ 1 is never zero, and off zero the ideal quotient x / y is x · y⁻¹ while 1 / y is y⁻¹
    (`mul_recip_eq_div`, `mean_mul_eq_div`).
-/
import Idealize.ShloMosaic.PureOps.Ideal.Laws
import Idealize.ShloMosaic.Lib.ValueIdx
import Idealize.ShloMosaic.Lib.Pipeline.Value
import Idealize.ShloMosaic.Lib.IdealHost
import Idealize.ShloMosaic.Lib.StackMember
import proofs.«140707_j69028714381804_1_alg».proof.Proof.LibPlainMatmul

noncomputable section

namespace LibGraphConv

open Idealize.ShloMosaic Idealize.ShloMosaic.ValueIdx

/-! ## The layer as one function of whole arrays -/

/-- Entry (p, q) of a graph-convolution layer: (Σ_k A(p,k)·W(k,q) + Σ_k X(p,k)·W'(k,q)) + b(q), clamped below at zero
    when `relu` is set. -/
def layer (relu : Bool) {M K N : ℕ} (A X : FVec Ideal ⟨2, ![M, K]⟩ .f32) (W : FVec Ideal ⟨2, ![K, N]⟩ .f32)
    (b : FVec Ideal ⟨1, ![N]⟩ .f32) (W' : FVec Ideal ⟨2, ![K, N]⟩ .f32) : FVec Ideal ⟨2, ![M, N]⟩ .f32 :=
  fun i => if relu then
      max (((∑ k : Fin K, A (ix2 (i 0) k) * W (ix2 k (i 1))) + ∑ k : Fin K, X (ix2 (i 0) k) * W' (ix2 k (i 1))) + b (ix1 (i 1))) 0
    else ((∑ k : Fin K, A (ix2 (i 0) k) * W (ix2 k (i 1))) + ∑ k : Fin K, X (ix2 (i 0) k) * W' (ix2 k (i 1))) + b (ix1 (i 1))

theorem layer_apply (relu : Bool) {M K N : ℕ} (A X : FVec Ideal ⟨2, ![M, K]⟩ .f32) (W : FVec Ideal ⟨2, ![K, N]⟩ .f32)
    (b : FVec Ideal ⟨1, ![N]⟩ .f32) (W' : FVec Ideal ⟨2, ![K, N]⟩ .f32) (p : Fin M) (q : Fin N) :
    layer relu A X W b W' (ix2 p q) = if relu then
      max (((∑ k : Fin K, A (ix2 p k) * W (ix2 k q)) + ∑ k : Fin K, X (ix2 p k) * W' (ix2 k q)) + b (ix1 q)) 0
    else ((∑ k : Fin K, A (ix2 p k) * W (ix2 k q)) + ∑ k : Fin K, X (ix2 p k) * W' (ix2 k q)) + b (ix1 q) := rfl

/-! ## A kernel's tile -/

/-- A one-row matrix copied down M rows reads, at (p, q), the row's entry q. -/
theorem broadcastTo_row_apply {α : Type} {M N : ℕ} (v : (⟨2, ![1, N]⟩ : Shape).Idx → α)
    (h : (⟨2, ![1, N]⟩ : Shape).Broadcasts ⟨2, ![M, N]⟩) (p : Fin M) (q : Fin N) :
    broadcastTo ⟨2, ![M, N]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if N = 1 then 0 else q.val
    split
    · have := q.isLt; omega
    · rfl

/-- The two products of a tile into zero accumulators, added, plus the bias row copied down the tile: at a tile entry
    the two sums over the contracted coordinate and the bias entry of that column. -/
theorem tile_apply {M K N : ℕ} {φ₁ φ₂ : FTy} (A X : FVec Ideal ⟨2, ![M, K]⟩ φ₁) (W W' : FVec Ideal ⟨2, ![K, N]⟩ φ₂)
    (b2 : FVec Ideal ⟨2, ![1, N]⟩ .f32) (hb : (⟨2, ![1, N]⟩ : Shape).Broadcasts ⟨2, ![M, N]⟩) (p : Fin M) (q : Fin N) :
    addf (addf (matmul (DotDims.plain M K N) none A W (constant (⟨2, ![M, N]⟩ : Shape) .f32 0x00000000#32))
        (matmul (DotDims.plain M K N) none X W' (constant (⟨2, ![M, N]⟩ : Shape) .f32 0x00000000#32)))
      (broadcastTo ⟨2, ![M, N]⟩ b2 hb) (ix2 p q)
    = ((∑ k : Fin K, A (ix2 p k) * W (ix2 k q)) + ∑ k : Fin K, X (ix2 p k) * W' (ix2 k q)) + b2 (ix2 (0 : Fin 1) q) := by
  rw [addf_apply, addf_apply, LibPlainMatmul.matmul_plain_zero_apply, LibPlainMatmul.matmul_plain_zero_apply,
    broadcastTo_row_apply]

/-- A vector cast to one row reads, at (0, q), the vector's entry q. -/
theorem shapeCast_row_apply {α : Type} {N : ℕ} (b : (⟨1, ![N]⟩ : Shape).Idx → α)
    (h : (⟨1, ![N]⟩ : Shape).ShapeCasts ⟨2, ![1, N]⟩) (q : Fin N) :
    shapeCast ⟨2, ![1, N]⟩ b h (ix2 (0 : Fin 1) q) = b (ix1 q) :=
  shapeCast_apply b h _ _ (by
    rw [Shape.rowMajor_val_two, Shape.rowMajor_val_one]
    show q.val = 0 * N + q.val
    omega)

/-- So the bias a kernel stages as one row is, column by column, the bias vector. -/
theorem row_of_cast {α : Type} {N : ℕ} (b : (⟨1, ![N]⟩ : Shape).Idx → α)
    (h : (⟨1, ![N]⟩ : Shape).ShapeCasts ⟨2, ![1, N]⟩) :
    (fun u : (⟨1, ![N]⟩ : Shape).Idx => shapeCast ⟨2, ![1, N]⟩ b h (ix2 (0 : Fin 1) (u 0))) = b :=
  funext fun u => (shapeCast_row_apply b h (u 0)).trans (congrArg b (eq_ix1 u).symm)

/-! ## The host's form of the layer -/

/-- A vector laid as one row and copied down M rows reads, at (p, q), the vector's entry q. -/
theorem bias_rows_apply {α : Type} {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun ax => by
    match ax with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun ax => by
    match ax with
    | ⟨0, _⟩ =>
      show q.val = if N = 1 then 0 else q.val
      split
      · have := q.isLt; omega
      · rfl)

/-- The host's (A·W + b) + X·W' is the layer without a rectifier: the two additions in the other order. -/
theorem host_layer_eq {M K N : ℕ} (A X : FVec Ideal ⟨2, ![M, K]⟩ .f32) (W W' : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral (DotDims.plain M K N) none A W)
        (broadcastInDim ⟨2, ![M, N]⟩ ![0, 1] h2 (broadcastInDim ⟨2, ![1, N]⟩ ![1] h1 b)))
      (Host.dotGeneral (DotDims.plain M K N) none X W')
    = layer false A X W b W' := by
  funext i
  obtain ⟨p, q, rfl⟩ : ∃ (p : Fin M) (q : Fin N), i = ix2 p q := ⟨i 0, i 1, eq_ix2 i⟩
  rw [layer_apply, addf_apply, addf_apply, StackMember.dotGeneral_plain_apply, StackMember.dotGeneral_plain_apply,
    bias_rows_apply]
  exact add_right_comm _ _ _

/-- … and with the maximum against a zero splat it is the layer with its rectifier. -/
theorem host_layer_relu_eq {M K N : ℕ} (A X : FVec Ideal ⟨2, ![M, K]⟩ .f32) (W W' : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (addf (Host.dotGeneral (DotDims.plain M K N) none A W)
        (broadcastInDim ⟨2, ![M, N]⟩ ![0, 1] h2 (broadcastInDim ⟨2, ![1, N]⟩ ![1] h1 b)))
      (Host.dotGeneral (DotDims.plain M K N) none X W'))
      (broadcastInDim ⟨2, ![M, N]⟩ ![] h0 (constant (⟨0, ![]⟩ : Shape) .f32 0x00000000#32))
    = layer true A X W b W' := by
  rw [host_layer_eq]
  funext i
  obtain ⟨p, q, rfl⟩ : ∃ (p : Fin M) (q : Fin N), i = ix2 p q := ⟨i 0, i 1, eq_ix2 i⟩
  rw [maximumf_apply, layer_apply, layer_apply,
    broadcastInDim_apply ![] h0 _ (ix2 p q) ix0 (fun ax => ax.elim0), constant_apply, Ideal.ofBits_zero_f32]
  rfl

/-! ## The neighbour mean: times the reciprocal column, or divided by the column -/

/-- Off zero the ideal quotient is the product with the inverse, so x · (1 / y) = x / y. -/
theorem mul_recip_eq_div (x y : EReal) (hy : y ≠ 0) : x * Ideal.div 1 y = Ideal.div x y := by
  unfold Ideal.div
  rw [if_neg hy, if_neg hy, one_mul]

/-- A vector of per-row values made a column and copied across the row reads, at (p, q), the value of row p. -/
theorem column_apply {α : Type} {n K : ℕ} (v : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, K]⟩ ![0, 1]) (p : Fin n) (q : Fin K) :
    broadcastInDim ⟨2, ![n, K]⟩ ![0, 1] h2 (broadcastInDim ⟨2, ![n, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if n = 1 then 0 else p.val
      split
      · have := p.isLt; omega
      · rfl
    | ⟨1, _⟩ => rfl)]
  exact broadcastInDim_apply ![0] h1 v (ix2 p (0 : Fin 1)) (ix1 p) (fun ax => by
    match ax with
    | ⟨0, _⟩ =>
      show p.val = if n = 1 then 0 else p.val
      split
      · have := p.isLt; omega
      · rfl)

/-- The sums S times the column 1 / max(deg, 1) is S divided by the column max(deg, 1): the divisor is at least one. -/
theorem mean_mul_eq_div {n K : ℕ} (S : FVec Ideal ⟨2, ![n, K]⟩ .f32) (deg : FVec Ideal ⟨1, ![n]⟩ .f32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, K]⟩ ![0, 1]) :
    mulf S (broadcastInDim ⟨2, ![n, K]⟩ ![0, 1] h2 (broadcastInDim ⟨2, ![n, 1]⟩ ![0] h1
      (Host.divf (broadcastInDim ⟨1, ![n]⟩ ![] h0 (constant (⟨0, ![]⟩ : Shape) .f32 0x3F800000#32))
        (maximumf deg (broadcastInDim ⟨1, ![n]⟩ ![] h0 (constant (⟨0, ![]⟩ : Shape) .f32 0x3F800000#32))))))
    = Host.divf S (broadcastInDim ⟨2, ![n, K]⟩ ![0, 1] h2 (broadcastInDim ⟨2, ![n, 1]⟩ ![0] h1
        (maximumf deg (broadcastInDim ⟨1, ![n]⟩ ![] h0 (constant (⟨0, ![]⟩ : Shape) .f32 0x3F800000#32))))) := by
  funext i
  obtain ⟨p, q, rfl⟩ : ∃ (p : Fin n) (q : Fin K), i = ix2 p q := ⟨i 0, i 1, eq_ix2 i⟩
  rw [mulf_apply, column_apply]
  show S (ix2 p q) * Ideal.div _ _ = Ideal.div (S (ix2 p q)) _
  rw [column_apply, maximumf_apply, broadcastInDim_apply ![] h0 _ (ix1 p) ix0 (fun ax => ax.elim0), constant_apply,
    Ideal.ofBits_one_f32]
  refine mul_recip_eq_div _ _ ?_
  exact (lt_of_lt_of_le zero_lt_one (le_max_right _ _)).ne'

end LibGraphConv

end
-- ==== Proof.LibColumn.lean ====
/-
  Two layout readings a row reduction with kept dimensions needs: a length-a vector cast to an a × 1 column, and an
  a × 1 column broadcast along the rows of an a × b array, each read at an index.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowNorm.lean ====
/-
  Dividing each row of a matrix by its Euclidean length, the length floored by a constant: a general fact read on the
  extended reals, independent of any program.

  For an M×N matrix Z and a floor e, entry (p, q) of the result is
      Z(p,q) / max( sqrt( Σ_k Z(p,k)·Z(p,k) ), e )                                            (`rowNorm`).
  * A kernel tile that squares Z entrywise, adds along the lanes from zero, makes the row sums a column, takes the square
    root, the maximum with the floor copied down the column, copies the column across the row and divides computes this at
    a tile entry (`tile_apply`).
  * The host's form — the squares reduced along axis 1 from a zero initial value, the sums made a column, the square root,
    the maximum with the floor splat, the column copied across the rows, the quotient — is the same function (`host_eq`).
  Both rest on one fact: over the row index p, the matrix index with the reduced coordinate k put back is (p, k)
  (`lift_row`), so either reduction is the sum over the row's entries.
-/
import Idealize.ShloMosaic.PureOps.Ideal.Laws
import Idealize.ShloMosaic.Lib.ValueIdx
import Idealize.ShloMosaic.Lib.Pipeline.Value
import Idealize.ShloMosaic.Lib.IdealHost
import proofs.«140707_j69028714381804_1_alg».proof.Proof.LibColumn

noncomputable section

namespace LibRowNorm

open Idealize.ShloMosaic Idealize.ShloMosaic.ValueIdx

/-- Entry (p, q) of a matrix whose rows are divided by their Euclidean length floored at `e`. -/
def rowNorm {M N : ℕ} (e : EReal) (Z : FVec Ideal ⟨2, ![M, N]⟩ .f32) : FVec Ideal ⟨2, ![M, N]⟩ .f32 :=
  fun i => Ideal.div (Z i) (max (Ideal.sqrt (∑ k : Fin N, Z (ix2 (i 0) k) * Z (ix2 (i 0) k))) e)

theorem rowNorm_apply {M N : ℕ} (e : EReal) (Z : FVec Ideal ⟨2, ![M, N]⟩ .f32) (p : Fin M) (q : Fin N) :
    rowNorm e Z (ix2 p q)
      = Ideal.div (Z (ix2 p q)) (max (Ideal.sqrt (∑ k : Fin N, Z (ix2 p k) * Z (ix2 p k))) e) := rfl

/-- Over the row index p, the index of the matrix with the reduced column coordinate k put back is (p, k). -/
theorem lift_row {M N : ℕ} (h : (⟨2, ![M, N]⟩ : Shape).Reduces [(1 : Fin 2)] ⟨1, ![M]⟩) (p : Fin M)
    (k : Fin ((⟨2, ![M, N]⟩ : Shape).size 1)) :
    h.lift (ix1 p) k = ix2 p (show Fin N from k) := by
  funext c
  apply Fin.ext
  show h.liftVal (ix1 p) k.val c = (ix2 p (show Fin N from k) c).val
  unfold Shape.Reduces.liftVal
  match c with
  | ⟨0, _⟩ => rfl
  | ⟨1, _⟩ => rfl

/-- The kernel's and the host's square root of an array, at an index: the ideal square root of the entry. -/
theorem sqrt_apply {s : Shape} {φ : FTy} (v : FVec Ideal s φ) (i : s.Idx) : sqrt v i = Ideal.sqrt (v i) := rfl
theorem hostSqrt_apply {s : Shape} {φ : FTy} (v : FVec Ideal s φ) (i : s.Idx) : Host.sqrt v i = Ideal.sqrt (v i) := rfl

/-- The squares of a row added along the lanes from zero: the sum over the row of the squared entries. -/
theorem lane_sum_sq {M N : ℕ} (Z : FVec Ideal ⟨2, ![M, N]⟩ .f32)
    (hr : (⟨2, ![M, N]⟩ : Shape).Reduces [(1 : Fin 2)] ⟨1, ![M]⟩) (hφ : FKind.Formats FTy.f32)
    (hacc : (0x00000000#32 : BitVec FTy.f32.bits) = FKind.add.neutral .f32 hφ) (p : Fin M) :
    multiReduction .add [(1 : Fin 2)] ⟨1, ![M]⟩ (mulf Z Z) 0x00000000#32 hr hφ hacc (ix1 p)
      = ∑ k : Fin N, Z (ix2 p k) * Z (ix2 p k) := by
  rw [Ideal.multiReduction_add_single]
  exact Finset.sum_congr rfl fun k _ => by rw [lift_row hr p k, mulf_apply]

/-- A kernel tile: square, add along the lanes, make the sums a column, take the root, floor it, copy the column across
    the row and divide — at a tile entry the row-normalised entry. -/
theorem tile_apply {M N : ℕ} (Z : FVec Ideal ⟨2, ![M, N]⟩ .f32) (w : BitVec 32)
    (hr : (⟨2, ![M, N]⟩ : Shape).Reduces [(1 : Fin 2)] ⟨1, ![M]⟩) (hφ : FKind.Formats FTy.f32)
    (hacc : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩)
    (p : Fin M) (q : Fin N) :
    divf Z (broadcastTo ⟨2, ![M, N]⟩
        (maximumf (sqrt (shapeCast ⟨2, ![M, 1]⟩
            (multiReduction .add [(1 : Fin 2)] ⟨1, ![M]⟩ (mulf Z Z) 0x00000000#32 hr hφ hacc) hc))
          (broadcast ⟨2, ![M, 1]⟩ (Scalar.ofBits (F := Ideal) .f32 w))) hb) (ix2 p q)
      = rowNorm (Ideal.ofBits .f32 w) Z (ix2 p q) := by
  rw [divf_apply, Cert.LibColumn.broadcastTo_a1_ab_apply, maximumf_apply, broadcast_apply, rowNorm_apply, sqrt_apply,
    Cert.LibColumn.shapeCast_a_a1_apply, lane_sum_sq]
  rfl

/-- A length-M vector laid as a column reads, at (p, 0), the vector's entry p. -/
theorem column_of_vector_apply {α : Type} {M : ℕ} (v : (⟨1, ![M]⟩ : Shape).Idx → α)
    (h1 : (⟨1, ![M]⟩ : Shape).BroadcastsInDim ⟨2, ![M, 1]⟩ ![0]) (p : Fin M) :
    broadcastInDim ⟨2, ![M, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if M = 1 then 0 else p.val
      split
      · have := p.isLt; omega
      · rfl)

/-- A column copied across N columns reads, at (p, q), the column's entry of row p. -/
theorem column_across_apply {α : Type} {M N : ℕ} (v : (⟨2, ![M, 1]⟩ : Shape).Idx → α)
    (h2 : (⟨2, ![M, 1]⟩ : Shape).BroadcastsInDim ⟨2, ![M, N]⟩ ![0, 1]) (p : Fin M) (q : Fin N) :
    broadcastInDim ⟨2, ![M, N]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if M = 1 then 0 else p.val
      split
      · have := p.isLt; omega
      · rfl
    | ⟨1, _⟩ => rfl)

/-- The host's form: the squares reduced along axis 1 from a zero initial value, the sums a column, the root, the
    maximum with the floor splat, the column copied across the rows, the quotient — the same function. -/
theorem host_eq {M N : ℕ} (Z : FVec Ideal ⟨2, ![M, N]⟩ .f32) (w : BitVec 32)
    (hrt : (⟨2, ![M, N]⟩ : Shape).ReducesTo [(1 : Fin 2)] ⟨1, ![M]⟩)
    (hr : (⟨2, ![M, N]⟩ : Shape).Reduces [(1 : Fin 2)] ⟨1, ![M]⟩) (hu : 0 < (⟨0, ![]⟩ : Shape).numel)
    (h1 : (⟨1, ![M]⟩ : Shape).BroadcastsInDim ⟨2, ![M, 1]⟩ ![0])
    (h0 : (⟨0, ![]⟩ : Shape).BroadcastsInDim ⟨2, ![M, 1]⟩ ![])
    (h2 : (⟨2, ![M, 1]⟩ : Shape).BroadcastsInDim ⟨2, ![M, N]⟩ ![0, 1]) :
    Host.divf Z (broadcastInDim ⟨2, ![M, N]⟩ ![0, 1] h2
        (maximumf (Host.sqrt (broadcastInDim ⟨2, ![M, 1]⟩ ![0] h1
            (Host.reduceAdd (mulf Z Z) (constant (F := Ideal) (⟨0, ![]⟩ : Shape) .f32 0x00000000#32) hrt hu)))
          (broadcastInDim ⟨2, ![M, 1]⟩ ![] h0 (constant (F := Ideal) (⟨0, ![]⟩ : Shape) .f32 w))))
      = rowNorm (Ideal.ofBits .f32 w) Z := by
  funext i
  obtain ⟨p, q, rfl⟩ : ∃ (p : Fin M) (q : Fin N), i = ix2 p q := ⟨i 0, i 1, eq_ix2 i⟩
  rw [hostDivf_apply, column_across_apply, maximumf_apply, rowNorm_apply,
    broadcastInDim_scalar_apply h0, constant_apply, hostSqrt_apply, column_of_vector_apply, hostReduceAdd_apply,
    Ideal.hostReduceAdd_single hrt hr, constant_apply, Ideal.ofBits_zero_f32, zero_add]
  refine congrArg (fun s => Ideal.div _ (max (Ideal.sqrt s) _)) (Finset.sum_congr rfl fun k _ => ?_)
  rw [lift_row hr p k, mulf_apply]

end LibRowNorm

end
-- ==== Proof.KernelTile.lean ====
/-
  The two kernel bodies at a tile entry, on the extended reals.

  Both bodies load a 5000-row tile of the features and of the aggregated features, the two 128×128 weight matrices and the
  bias as one row, and compute  max( (tile_h · Ws + tile_agg · Wn) + bias, 0 ).  The change of format before each product
  is the identity on the extended reals, and a product into a zero accumulator is the sum over the contracted coordinate,
  so entry (p, q) of that tile is
      max( (Σ_k h(p,k)·Ws(k,q) + Σ_k agg(p,k)·Wn(k,q)) + b(0,q), 0 )                               (`tileEntry`).
  The first body stores this (`pay0_apply`). The second body goes on: it divides each row of the tile by the row's
  Euclidean length floored at the single-precision word 0x2B8CBCCC; a tile holds whole rows, so this is the row
  normalisation of the tile's own entries (`pay1_apply`).
-/
import proofs.«140707_j69028714381804_1_alg».proof.Proof.Gen.KernelIdeal.Skeleton
import proofs.«140707_j69028714381804_1_alg».proof.Proof.LibGraphConv
import proofs.«140707_j69028714381804_1_alg».proof.Proof.LibRowNorm

noncomputable section

namespace Cert.KernelIdeal.Tile

open Cert.KernelIdeal Cert.KernelIdeal.Gen Idealize.ShloMosaic Idealize.ShloMosaic.ValueIdx

/-- The kernels' contraction is the plain one: the left operand's columns against the right operand's rows. -/
theorem dot_eq : dot_S5000x128_S128x128_S5000x128_1_0_0_1_n_n = DotDims.plain 5000 128 128 := rfl

/-- Entry (p, q) of a tile's layer, from the tile's rows, the weights and the bias row. -/
def tileEntry (x0 x1 : S5000x128.Idx → EReal) (x2 x3 : Vec Ideal S128x128 .f32) (x4 : Vec Ideal S1x128 .f32)
    (p : Fin 5000) (q : Fin 128) : EReal :=
  max (((∑ k : Fin 128, x0 (ix2 p k) * x2 (ix2 k q)) + ∑ k : Fin 128, x1 (ix2 p k) * x3 (ix2 k q))
    + x4 (ix2 (0 : Fin 1) q)) 0

/-- The rectified sum both bodies compute before anything else, as an array over the tile, from the two left operands
    as they reach the products. -/
def tileLayer (A X : FVec Ideal S5000x128 .bf16) (x2 x3 : Vec Ideal S128x128 .f32) (x4 : Vec Ideal S1x128 .f32) :
    FVec Ideal S5000x128 .f32 :=
  maximumf (addf (addf
      (matmul dot_S5000x128_S128x128_S5000x128_1_0_0_1_n_n none A (truncf .bf16 x2 bitsLt_bf16_f32)
        (constant S5000x128 .f32 0x00000000#32))
      (matmul dot_S5000x128_S128x128_S5000x128_1_0_0_1_n_n none X (truncf .bf16 x3 bitsLt_bf16_f32)
        (constant S5000x128 .f32 0x00000000#32)))
    (broadcastTo S5000x128 (shapeCast S1x128 x4 shapeCasts_S1x128_S1x128) broadcasts_S1x128_S5000x128))
    (broadcast S5000x128 (Scalar.ofBits (F := Ideal) .f32 0x00000000#32))

theorem tileLayer_apply (A X : FVec Ideal S5000x128 .bf16) (x2 x3 : Vec Ideal S128x128 .f32) (x4 : Vec Ideal S1x128 .f32)
    (p : Fin 5000) (q : Fin 128) : tileLayer A X x2 x3 x4 (ix2 p q) = tileEntry A X x2 x3 x4 p q := by
  unfold tileLayer tileEntry
  rw [dot_eq, shapeCast_self, maximumf_apply, broadcast_apply, LibGraphConv.tile_apply]
  show max _ (Ideal.ofBits .f32 0x00000000#32) = _
  rw [Ideal.ofBits_zero_f32]
  rfl

/-- The first body stores the tile's layer. -/
theorem pay0_apply (x0 x1 : Vec Ideal S5000x128 .f32) (x2 x3 : Vec Ideal S128x128 .f32) (x4 : Vec Ideal S1x128 .f32)
    (p : Fin 5000) (q : Fin 128) : k0_pay1 (F := Ideal) x0 x1 x2 x3 x4 (ix2 p q) = tileEntry x0 x1 x2 x3 x4 p q := by
  have h : k0_pay1 (F := Ideal) x0 x1 x2 x3 x4
      = tileLayer (truncf .bf16 x0 bitsLt_bf16_f32)
          (truncf .bf16 (shapeCast S5000x128 x1 shapeCasts_S5000x128_S5000x128) bitsLt_bf16_f32) x2 x3 x4 := rfl
  rw [h, shapeCast_self, tileLayer_apply]
  rfl

/-- The floor of the row length: the single-precision word of 1e-12. -/
abbrev floorWord : BitVec 32 := 0x2B8CBCCC#32

/-- The second body stores the tile's layer with each row divided by its floored Euclidean length. -/
theorem pay1_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = Ideal.div (tileEntry x0 x1 x2 x3 x4 p q)
          (max (Ideal.sqrt (∑ k : Fin 128, tileEntry x0 x1 x2 x3 x4 p k * tileEntry x0 x1 x2 x3 x4 p k))
            (Ideal.ofBits .f32 floorWord)) := by
  have h : k1_pay1 (F := Ideal) x0 x1 x2 x3 x4
      = divf (tileLayer (truncf .bf16 (shapeCast S5000x128 x0 shapeCasts_S5000x128_S5000x128) bitsLt_bf16_f32)
            (truncf .bf16 (shapeCast S5000x128 x1 shapeCasts_S5000x128_S5000x128) bitsLt_bf16_f32) x2 x3 x4)
          (broadcastTo S5000x128
            (maximumf (sqrt (shapeCast S5000x1
                (multiReduction .add [1] S5000
                  (mulf (tileLayer (truncf .bf16 (shapeCast S5000x128 x0 shapeCasts_S5000x128_S5000x128) bitsLt_bf16_f32)
                      (truncf .bf16 (shapeCast S5000x128 x1 shapeCasts_S5000x128_S5000x128) bitsLt_bf16_f32) x2 x3 x4)
                    (tileLayer (truncf .bf16 (shapeCast S5000x128 x0 shapeCasts_S5000x128_S5000x128) bitsLt_bf16_f32)
                      (truncf .bf16 (shapeCast S5000x128 x1 shapeCasts_S5000x128_S5000x128) bitsLt_bf16_f32) x2 x3 x4))
                  0x00000000#32 reduces_S5000x128_S5000 (.inl rfl) rfl) shapeCasts_S5000_S5000x1))
              (broadcast S5000x1 (Scalar.ofBits (F := Ideal) .f32 floorWord))) broadcasts_S5000x1_S5000x128) := rfl
  rw [h, shapeCast_self, shapeCast_self]
  refine (LibRowNorm.tile_apply (tileLayer (truncf .bf16 x0 bitsLt_bf16_f32) (truncf .bf16 x1 bitsLt_bf16_f32) x2 x3 x4)
    floorWord reduces_S5000x128_S5000 (.inl rfl) rfl shapeCasts_S5000_S5000x1 broadcasts_S5000x1_S5000x128 p q).trans ?_
  rw [LibRowNorm.rowNorm_apply, tileLayer_apply]
  refine congrArg (fun s => Ideal.div _ (max (Ideal.sqrt s) _)) (Finset.sum_congr rfl fun k _ => ?_)
  rw [tileLayer_apply]
  rfl

end Cert.KernelIdeal.Tile

end
-- ==== Proof.Region0.lean ====
/-
  One kernel region of the program read at the level of its blocks: what the region's grid points stage and where the
  blocks they write back lie, in terms of the arrays the region finds on entry.

  The region runs its body at 20 grid points. Point t stages rows 5000·t … 5000·t + 4999 of the features and of the
  aggregated features (whole rows: all 128 columns), the two weight matrices and the bias row whole, and writes back rows
  5000·t … 5000·t + 4999 of the result. Entry (p, k) of a staged row block is entry (5000·t + p, k) of its array
  (`blk_h`, `blk_a`); the weight and bias blocks are their arrays (`blk_ws`, `blk_wn`, `blk_b`). Hence the tile's layer
  entry (p, q) at point t is entry (5000·t + p, q) of the layer of the whole arrays (`entry_eq`), the output block's entry
  (p, q) is the array's entry (5000·t + p, q) (`emb_out`), and the 20 output blocks cover the result array: row r lies in
  the block of point r / 5000 (`cover`).
-/
import proofs.«140707_j69028714381804_1_alg».proof.Proof.Gen.KernelIdeal.Frame
import proofs.«140707_j69028714381804_1_alg».proof.Proof.KernelTile
import Idealize.ShloMosaic.Lib.Pipeline.Value

set_option maxRecDepth 16384

noncomputable section

namespace Cert.KernelIdeal.Region0

open Cert.KernelIdeal Cert.KernelIdeal.Gen Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row windows' block index is (t, 0), the others' (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The arrays the region reads, by their literal types. -/
abbrev harr (c : Dev nD) : FVec Ideal S100000x128 .f32 := V c main_arg0
abbrev aarr (c : Dev nD) : FVec Ideal S100000x128 .f32 := V c main_v20
abbrev wsarr (c : Dev nD) : FVec Ideal S128x128 .f32 := V c main_arg3
abbrev wnarr (c : Dev nD) : FVec Ideal S128x128 .f32 := V c main_arg4
abbrev brow (c : Dev nD) : FVec Ideal S1x128 .f32 := V c main_v21
/-- The bias row as a vector. -/
abbrev bvec (c : Dev nD) : FVec Ideal S128 .f32 := fun u => brow V c (ix2 (0 : Fin 1) (u 0))

/-- Row p of point t's tile is row 5000·t + p of the array. -/
def row (t : Fin cfg0.N) (p : Fin 5000) : Fin 100000 :=
  ⟨t.val * 5000 + p.val, by have := t.isLt; have h : cfg0.N = 20 := N_0; have := p.isLt; omega⟩

theorem blk_h (c : Dev nD) (t : Fin cfg0.N) (p : Fin 5000) (j : Fin 128) :
    iblk0 V c 0 t (ix2 p j) = harr V c (ix2 (row t p) j) := by
  show V c main_arg0 (((cfg0.win 0).blk t).view.emb (ix2 p j)) = V c main_arg0 (ix2 (row t p) j)
  obtain ⟨e00, e01, -⟩ := idx_facts t
  refine congrArg (V c main_arg0) (funext fun a => Fin.ext ?_)
  match a with
  | ⟨0, _⟩ => show win0_0.index t (0 : Fin 2) * 5000 + 1 * p.val = t.val * 5000 + p.val; rw [e00]; omega
  | ⟨1, _⟩ => show win0_0.index t (1 : Fin 2) * 128 + 1 * j.val = j.val; rw [e01]; omega

theorem blk_a (c : Dev nD) (t : Fin cfg0.N) (p : Fin 5000) (j : Fin 128) :
    iblk0 V c 1 t (ix2 p j) = aarr V c (ix2 (row t p) j) := by
  show V c main_v20 (((cfg0.win 1).blk t).view.emb (ix2 p j)) = V c main_v20 (ix2 (row t p) j)
  obtain ⟨-, -, e10, e11, -⟩ := idx_facts t
  refine congrArg (V c main_v20) (funext fun a => Fin.ext ?_)
  match a with
  | ⟨0, _⟩ => show win0_1.index t (0 : Fin 2) * 5000 + 1 * p.val = t.val * 5000 + p.val; rw [e10]; omega
  | ⟨1, _⟩ => show win0_1.index t (1 : Fin 2) * 128 + 1 * j.val = j.val; rw [e11]; omega

theorem blk_ws (c : Dev nD) (t : Fin cfg0.N) (i j : Fin 128) :
    iblk0 V c 2 t (ix2 i j) = wsarr V c (ix2 i j) := by
  show V c main_arg3 (((cfg0.win 2).blk t).view.emb (ix2 i j)) = V c main_arg3 (ix2 i j)
  obtain ⟨-, -, -, -, e20, e21, -⟩ := idx_facts t
  refine congrArg (V c main_arg3) (funext fun a => Fin.ext ?_)
  match a with
  | ⟨0, _⟩ => show win0_2.index t (0 : Fin 2) * 128 + 1 * i.val = i.val; rw [e20]; omega
  | ⟨1, _⟩ => show win0_2.index t (1 : Fin 2) * 128 + 1 * j.val = j.val; rw [e21]; omega

theorem blk_wn (c : Dev nD) (t : Fin cfg0.N) (i j : Fin 128) :
    iblk0 V c 3 t (ix2 i j) = wnarr V c (ix2 i j) := by
  show V c main_arg4 (((cfg0.win 3).blk t).view.emb (ix2 i j)) = V c main_arg4 (ix2 i j)
  obtain ⟨-, -, -, -, -, -, e30, e31, -⟩ := idx_facts t
  refine congrArg (V c main_arg4) (funext fun a => Fin.ext ?_)
  match a with
  | ⟨0, _⟩ => show win0_3.index t (0 : Fin 2) * 128 + 1 * i.val = i.val; rw [e30]; omega
  | ⟨1, _⟩ => show win0_3.index t (1 : Fin 2) * 128 + 1 * j.val = j.val; rw [e31]; omega

theorem blk_b (c : Dev nD) (t : Fin cfg0.N) (j : Fin 128) :
    iblk0 V c 4 t (ix2 (0 : Fin 1) j) = brow V c (ix2 (0 : Fin 1) j) := by
  show V c main_v21 (((cfg0.win 4).blk t).view.emb (ix2 (0 : Fin 1) j)) = V c main_v21 (ix2 (0 : Fin 1) j)
  obtain ⟨-, -, -, -, -, -, -, -, e40, e41, -⟩ := idx_facts t
  refine congrArg (V c main_v21) (funext fun a => Fin.ext ?_)
  match a with
  | ⟨0, _⟩ => show win0_4.index t (0 : Fin 2) * 1 + 1 * (0 : Fin 1).val = (0 : Fin 1).val; rw [e40]; rfl
  | ⟨1, _⟩ => show win0_4.index t (1 : Fin 2) * 128 + 1 * j.val = j.val; rw [e41]; omega

/-- The layer of the whole arrays. -/
def L (c : Dev nD) : FVec Ideal S100000x128 .f32 :=
  LibGraphConv.layer true (harr V c) (aarr V c) (wsarr V c) (bvec V c) (wnarr V c)

/-- A tile entry of point t is the layer's entry in the tile's row of the array. -/
theorem entry_eq (c : Dev nD) (t : Fin cfg0.N) (p : Fin 5000) (q : Fin 128) :
    Tile.tileEntry (iblk0 V c 0 t) (iblk0 V c 1 t) (iblk0 V c 2 t) (iblk0 V c 3 t) (iblk0 V c 4 t) p q
      = L V c (ix2 (row t p) q) := by
  unfold L Tile.tileEntry
  rw [LibGraphConv.layer_apply, if_pos rfl]
  simp only [blk_h, blk_a, blk_ws, blk_wn, blk_b]

/-- The output block's entry (p, q) at point t is the array's entry (5000·t + p, q). -/
theorem emb_out (t : Fin cfg0.N) (p : Fin 5000) (q : Fin 128) :
    ((cfg0.win 5).blk t).view.emb (ix2 p q) = ix2 (row t p) q := by
  obtain ⟨-, -, -, -, -, -, -, -, -, -, e50, e51⟩ := idx_facts t
  funext a
  apply Fin.ext
  match a with
  | ⟨0, _⟩ => show win0_5.index t (0 : Fin 2) * 5000 + 1 * p.val = t.val * 5000 + p.val; rw [e50]; omega
  | ⟨1, _⟩ => show win0_5.index t (1 : Fin 2) * 128 + 1 * q.val = q.val; rw [e51]; omega

/-- An index of the array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v22).slice (win0_5.rect t)).set ↔ _
  rw [View.set_slice_whole, Rect.mem_set_unit]
  exact Iff.rfl

/-- Every index of the array is in the block of some point: row r in that of point r / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by omega⟩
  obtain ⟨-, -, -, -, -, -, -, -, -, -, e50, e51⟩ := idx_facts t
  have ht : t.val = (i 0).val / 5000 := rfl
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e50, ht]; omega
  | ⟨1, _⟩ =>
    show win0_5.index t (1 : Fin 2) * 128 ≤ (i 1).val ∧ (i 1).val < win0_5.index t (1 : Fin 2) * 128 + 128
    rw [e51]; omega

end Cert.KernelIdeal.Region0

end
-- ==== Proof.Region1.lean ====
/-
  One kernel region of the program read at the level of its blocks: what the region's grid points stage and where the
  blocks they write back lie, in terms of the arrays the region finds on entry.

  The region runs its body at 20 grid points. Point t stages rows 5000·t … 5000·t + 4999 of the features and of the
  aggregated features (whole rows: all 128 columns), the two weight matrices and the bias row whole, and writes back rows
  5000·t … 5000·t + 4999 of the result. Entry (p, k) of a staged row block is entry (5000·t + p, k) of its array
  (`blk_h`, `blk_a`); the weight and bias blocks are their arrays (`blk_ws`, `blk_wn`, `blk_b`). Hence the tile's layer
  entry (p, q) at point t is entry (5000·t + p, q) of the layer of the whole arrays (`entry_eq`), the output block's entry
  (p, q) is the array's entry (5000·t + p, q) (`emb_out`), and the 20 output blocks cover the result array: row r lies in
  the block of point r / 5000 (`cover`).
-/
import proofs.«140707_j69028714381804_1_alg».proof.Proof.Gen.KernelIdeal.Frame
import proofs.«140707_j69028714381804_1_alg».proof.Proof.KernelTile
import Idealize.ShloMosaic.Lib.Pipeline.Value

set_option maxRecDepth 16384

noncomputable section

namespace Cert.KernelIdeal.Region1

open Cert.KernelIdeal Cert.KernelIdeal.Gen Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row windows' block index is (t, 0), the others' (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The arrays the region reads, by their literal types. -/
abbrev harr (c : Dev nD) : FVec Ideal S100000x128 .f32 := V c main_v22
abbrev aarr (c : Dev nD) : FVec Ideal S100000x128 .f32 := V c main_v35
abbrev wsarr (c : Dev nD) : FVec Ideal S128x128 .f32 := V c main_arg6
abbrev wnarr (c : Dev nD) : FVec Ideal S128x128 .f32 := V c main_arg7
abbrev brow (c : Dev nD) : FVec Ideal S1x128 .f32 := V c main_v36
/-- The bias row as a vector. -/
abbrev bvec (c : Dev nD) : FVec Ideal S128 .f32 := fun u => brow V c (ix2 (0 : Fin 1) (u 0))

/-- Row p of point t's tile is row 5000·t + p of the array. -/
def row (t : Fin cfg1.N) (p : Fin 5000) : Fin 100000 :=
  ⟨t.val * 5000 + p.val, by have := t.isLt; have h : cfg1.N = 20 := N_1; have := p.isLt; omega⟩

theorem blk_h (c : Dev nD) (t : Fin cfg1.N) (p : Fin 5000) (j : Fin 128) :
    iblk1 V c 0 t (ix2 p j) = harr V c (ix2 (row t p) j) := by
  show V c main_v22 (((cfg1.win 0).blk t).view.emb (ix2 p j)) = V c main_v22 (ix2 (row t p) j)
  obtain ⟨e00, e01, -⟩ := idx_facts t
  refine congrArg (V c main_v22) (funext fun a => Fin.ext ?_)
  match a with
  | ⟨0, _⟩ => show win1_0.index t (0 : Fin 2) * 5000 + 1 * p.val = t.val * 5000 + p.val; rw [e00]; omega
  | ⟨1, _⟩ => show win1_0.index t (1 : Fin 2) * 128 + 1 * j.val = j.val; rw [e01]; omega

theorem blk_a (c : Dev nD) (t : Fin cfg1.N) (p : Fin 5000) (j : Fin 128) :
    iblk1 V c 1 t (ix2 p j) = aarr V c (ix2 (row t p) j) := by
  show V c main_v35 (((cfg1.win 1).blk t).view.emb (ix2 p j)) = V c main_v35 (ix2 (row t p) j)
  obtain ⟨-, -, e10, e11, -⟩ := idx_facts t
  refine congrArg (V c main_v35) (funext fun a => Fin.ext ?_)
  match a with
  | ⟨0, _⟩ => show win1_1.index t (0 : Fin 2) * 5000 + 1 * p.val = t.val * 5000 + p.val; rw [e10]; omega
  | ⟨1, _⟩ => show win1_1.index t (1 : Fin 2) * 128 + 1 * j.val = j.val; rw [e11]; omega

theorem blk_ws (c : Dev nD) (t : Fin cfg1.N) (i j : Fin 128) :
    iblk1 V c 2 t (ix2 i j) = wsarr V c (ix2 i j) := by
  show V c main_arg6 (((cfg1.win 2).blk t).view.emb (ix2 i j)) = V c main_arg6 (ix2 i j)
  obtain ⟨-, -, -, -, e20, e21, -⟩ := idx_facts t
  refine congrArg (V c main_arg6) (funext fun a => Fin.ext ?_)
  match a with
  | ⟨0, _⟩ => show win1_2.index t (0 : Fin 2) * 128 + 1 * i.val = i.val; rw [e20]; omega
  | ⟨1, _⟩ => show win1_2.index t (1 : Fin 2) * 128 + 1 * j.val = j.val; rw [e21]; omega

theorem blk_wn (c : Dev nD) (t : Fin cfg1.N) (i j : Fin 128) :
    iblk1 V c 3 t (ix2 i j) = wnarr V c (ix2 i j) := by
  show V c main_arg7 (((cfg1.win 3).blk t).view.emb (ix2 i j)) = V c main_arg7 (ix2 i j)
  obtain ⟨-, -, -, -, -, -, e30, e31, -⟩ := idx_facts t
  refine congrArg (V c main_arg7) (funext fun a => Fin.ext ?_)
  match a with
  | ⟨0, _⟩ => show win1_3.index t (0 : Fin 2) * 128 + 1 * i.val = i.val; rw [e30]; omega
  | ⟨1, _⟩ => show win1_3.index t (1 : Fin 2) * 128 + 1 * j.val = j.val; rw [e31]; omega

theorem blk_b (c : Dev nD) (t : Fin cfg1.N) (j : Fin 128) :
    iblk1 V c 4 t (ix2 (0 : Fin 1) j) = brow V c (ix2 (0 : Fin 1) j) := by
  show V c main_v36 (((cfg1.win 4).blk t).view.emb (ix2 (0 : Fin 1) j)) = V c main_v36 (ix2 (0 : Fin 1) j)
  obtain ⟨-, -, -, -, -, -, -, -, e40, e41, -⟩ := idx_facts t
  refine congrArg (V c main_v36) (funext fun a => Fin.ext ?_)
  match a with
  | ⟨0, _⟩ => show win1_4.index t (0 : Fin 2) * 1 + 1 * (0 : Fin 1).val = (0 : Fin 1).val; rw [e40]; rfl
  | ⟨1, _⟩ => show win1_4.index t (1 : Fin 2) * 128 + 1 * j.val = j.val; rw [e41]; omega

/-- The layer of the whole arrays. -/
def L (c : Dev nD) : FVec Ideal S100000x128 .f32 :=
  LibGraphConv.layer true (harr V c) (aarr V c) (wsarr V c) (bvec V c) (wnarr V c)

/-- A tile entry of point t is the layer's entry in the tile's row of the array. -/
theorem entry_eq (c : Dev nD) (t : Fin cfg1.N) (p : Fin 5000) (q : Fin 128) :
    Tile.tileEntry (iblk1 V c 0 t) (iblk1 V c 1 t) (iblk1 V c 2 t) (iblk1 V c 3 t) (iblk1 V c 4 t) p q
      = L V c (ix2 (row t p) q) := by
  unfold L Tile.tileEntry
  rw [LibGraphConv.layer_apply, if_pos rfl]
  simp only [blk_h, blk_a, blk_ws, blk_wn, blk_b]

/-- The output block's entry (p, q) at point t is the array's entry (5000·t + p, q). -/
theorem emb_out (t : Fin cfg1.N) (p : Fin 5000) (q : Fin 128) :
    ((cfg1.win 5).blk t).view.emb (ix2 p q) = ix2 (row t p) q := by
  obtain ⟨-, -, -, -, -, -, -, -, -, -, e50, e51⟩ := idx_facts t
  funext a
  apply Fin.ext
  match a with
  | ⟨0, _⟩ => show win1_5.index t (0 : Fin 2) * 5000 + 1 * p.val = t.val * 5000 + p.val; rw [e50]; omega
  | ⟨1, _⟩ => show win1_5.index t (1 : Fin 2) * 128 + 1 * q.val = q.val; rw [e51]; omega

/-- An index of the array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v37).slice (win1_5.rect t)).set ↔ _
  rw [View.set_slice_whole, Rect.mem_set_unit]
  exact Iff.rfl

/-- Every index of the array is in the block of some point: row r in that of point r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by omega⟩
  obtain ⟨-, -, -, -, -, -, -, -, -, -, e50, e51⟩ := idx_facts t
  have ht : t.val = (i 0).val / 5000 := rfl
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    rw [e50, ht]; omega
  | ⟨1, _⟩ =>
    show win1_5.index t (1 : Fin 2) * 128 ≤ (i 1).val ∧ (i 1).val < win1_5.index t (1 : Fin 2) * 128 + 128
    rw [e51]; omega

end Cert.KernelIdeal.Region1

end
-- ==== Proof.RegionFinal.lean ====
/-
  The two kernel regions' result arrays as whole-array functions of what each region finds on entry.

  The first body stores its tile's layer, so what point t writes back is block t of the layer of the whole arrays, and
  since the blocks cover the result array it ends holding that layer (`Region0.final`).
  The second body also divides each row of its tile's layer by the row's floored Euclidean length. A tile holds whole
  rows — all 128 entries of each of its 5000 rows — so the length a point computes is the length of the array's row,
  and what it writes back is block t of the row-normalised layer of the whole arrays; the result array ends holding
  that (`Region1.final`).
-/
import proofs.«140707_j69028714381804_1_alg».proof.Proof.Region0
import proofs.«140707_j69028714381804_1_alg».proof.Proof.Region1

set_option maxRecDepth 16384

noncomputable section

open Cert.KernelIdeal Cert.KernelIdeal.Gen Idealize.ShloMosaic Idealize.ShloMosaic.ValueIdx Idealize.ShloMosaic.TcCoe
open Idealize.SL.Sem
open Idealize.ShloMosaic.Pipeline (Dat Cfg Window)

namespace Cert.KernelIdeal.Region0

variable (V : (c : Dev nD) → (b : Ref sig .tc) → Buf (Elt Ideal) ((c : Thread nD τ).loc b))

/-- What point t writes back is block t of the layer of the whole arrays. -/
theorem flushed_eq (c : Dev nD) (t : Fin cfg0.N) :
    (dat0 V c).flushed 5 t = ((cfg0.win 5).blk t).view.read (Elt Ideal) (L V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show k0_pay1 (F := Ideal) (iblk0 V c 0 t) (iblk0 V c 1 t) (iblk0 V c 2 t) (iblk0 V c 3 t) (iblk0 V c 4 t) (ix2 p q)
    = L V c (((cfg0.win 5).blk t).view.emb (ix2 p q))
  rw [emb_out]
  exact (Tile.pay0_apply (iblk0 V c 0 t) (iblk0 V c 1 t) (iblk0 V c 2 t) (iblk0 V c 3 t) (iblk0 V c 4 t) p q).trans
    (entry_eq V c t p q)

/-- The first region's result array after the region: the layer. -/
theorem final (c : Dev nD) : (dat0 V c).arrAt 5 cfg0.N = L V c :=
  (dat0 V c).arrAt_eq_of_cover 5 (L V c) (fun t _ => flushed_eq V c t) cover

end Cert.KernelIdeal.Region0

namespace Cert.KernelIdeal.Region1

variable (V : (c : Dev nD) → (b : Ref sig .tc) → Buf (Elt Ideal) ((c : Thread nD τ).loc b))

/-- The layer of the whole arrays with each row divided by its floored Euclidean length. -/
def G (c : Dev nD) : FVec Ideal S100000x128 .f32 := LibRowNorm.rowNorm (Ideal.ofBits .f32 Tile.floorWord) (L V c)

/-- What point t writes back is block t of the row-normalised layer. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show k1_pay1 (F := Ideal) (iblk1 V c 0 t) (iblk1 V c 1 t) (iblk1 V c 2 t) (iblk1 V c 3 t) (iblk1 V c 4 t) (ix2 p q)
    = G V c (((cfg1.win 5).blk t).view.emb (ix2 p q))
  rw [emb_out]
  refine (Tile.pay1_apply (iblk1 V c 0 t) (iblk1 V c 1 t) (iblk1 V c 2 t) (iblk1 V c 3 t) (iblk1 V c 4 t) p q).trans ?_
  unfold G
  rw [LibRowNorm.rowNorm_apply, entry_eq]
  refine congrArg (fun s => Ideal.div _ (max (Ideal.sqrt s) _)) (Finset.sum_congr rfl fun j _ => ?_)
  rw [entry_eq]

/-- The second region's result array after the region: the row-normalised layer. -/
theorem final (c : Dev nD) : (dat1 V c).arrAt 5 cfg1.N = G V c :=
  (dat1 V c).arrAt_eq_of_cover 5 (G V c) (fun t _ => flushed_eq V c t) cover

end Cert.KernelIdeal.Region1

end
-- ==== Proof.SageNet.lean ====
/-
  A two-layer mean-aggregating graph network with a row normalisation at the end, as one function of whole arrays on the
  extended reals, independent of any program.

  Let `agg` be ANY map from node features to aggregated neighbour features (here it is never opened: both programs
  compute it by the same gather, scatter-add and scaling by the inverse degree). One layer sends features h to
      relu( (h · Ws + agg(h) · Wn) + b ),
  entry (p, q) being  max( (Σ_k h(p,k)·Ws(k,q) + Σ_k agg(h)(p,k)·Wn(k,q)) + b(q), 0 ).
  The network applies a first layer to x, a second layer to the result, and divides each row of that by its Euclidean
  length floored at e (`net`).
  * The host's spelling of one layer — two matrix products added, the bias laid as a row and copied down, the maximum with
    a zero splat — is that layer (`host_layer_eq`): each product at an entry is the sum over the contracted coordinate.
  * The host's spelling of the whole network is `net` (`host_net_eq`).
-/
import Idealize.ShloMosaic.PureOps.Ideal.Laws
import Idealize.ShloMosaic.Lib.ValueIdx
import Idealize.ShloMosaic.Lib.Pipeline.Value
import Idealize.ShloMosaic.Lib.IdealHost
import Idealize.ShloMosaic.Lib.StackMember
import proofs.«140707_j69028714381804_1_alg».proof.Proof.LibGraphConv
import proofs.«140707_j69028714381804_1_alg».proof.Proof.LibRowNorm

noncomputable section

namespace SageNet

open Idealize.ShloMosaic Idealize.ShloMosaic.ValueIdx

variable {n d : ℕ}

/-- The network: layer, layer, row normalisation with floor `e`. -/
def net (agg : FVec Ideal ⟨2, ![n, d]⟩ .f32 → FVec Ideal ⟨2, ![n, d]⟩ .f32) (e : EReal)
    (x : FVec Ideal ⟨2, ![n, d]⟩ .f32) (Ws0 Wn0 : FVec Ideal ⟨2, ![d, d]⟩ .f32) (b0 : FVec Ideal ⟨1, ![d]⟩ .f32)
    (Ws1 Wn1 : FVec Ideal ⟨2, ![d, d]⟩ .f32) (b1 : FVec Ideal ⟨1, ![d]⟩ .f32) : FVec Ideal ⟨2, ![n, d]⟩ .f32 :=
  LibRowNorm.rowNorm e
    (LibGraphConv.layer true (LibGraphConv.layer true x (agg x) Ws0 b0 Wn0)
      (agg (LibGraphConv.layer true x (agg x) Ws0 b0 Wn0)) Ws1 b1 Wn1)

/-- The host's layer: the product of the features and of the aggregated features with their weights, added, plus the bias
    row copied down, clamped below at zero. -/
theorem host_layer_eq {M K N : ℕ} (D : DotDims ⟨2, ![M, K]⟩ ⟨2, ![K, N]⟩ ⟨2, ![M, N]⟩) (hD : D = DotDims.plain M K N)
    (A X : FVec Ideal ⟨2, ![M, K]⟩ .f32) (W W' : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1])
    (hz : (⟨0, ![]⟩ : Shape).BroadcastsInDim ⟨2, ![M, N]⟩ ![]) :
    maximumf (addf (addf (Host.dotGeneral D none A W) (Host.dotGeneral D none X W'))
        (broadcastInDim ⟨2, ![M, N]⟩ ![0, 1] hb2 (broadcastInDim ⟨2, ![1, N]⟩ ![1] hb1 b)))
      (broadcastInDim ⟨2, ![M, N]⟩ ![] hz (constant (F := Ideal) (⟨0, ![]⟩ : Shape) .f32 0x00000000#32))
    = LibGraphConv.layer true A X W b W' := by
  subst hD
  funext i
  obtain ⟨p, q, rfl⟩ : ∃ (p : Fin M) (q : Fin N), i = ix2 p q := ⟨i 0, i 1, eq_ix2 i⟩
  rw [maximumf_apply, addf_apply, addf_apply, StackMember.dotGeneral_plain_apply, StackMember.dotGeneral_plain_apply,
    LibGraphConv.bias_rows_apply, broadcastInDim_scalar_apply hz, constant_apply, Ideal.ofBits_zero_f32,
    LibGraphConv.layer_apply]
  rfl

/-- The host's spelling of the whole network is the network. -/
theorem host_net_eq (D : DotDims ⟨2, ![n, d]⟩ ⟨2, ![d, d]⟩ ⟨2, ![n, d]⟩) (hD : D = DotDims.plain n d d)
    (agg : FVec Ideal ⟨2, ![n, d]⟩ .f32 → FVec Ideal ⟨2, ![n, d]⟩ .f32) (w : BitVec 32)
    (x : FVec Ideal ⟨2, ![n, d]⟩ .f32) (Ws0 Wn0 : FVec Ideal ⟨2, ![d, d]⟩ .f32) (b0 : FVec Ideal ⟨1, ![d]⟩ .f32)
    (Ws1 Wn1 : FVec Ideal ⟨2, ![d, d]⟩ .f32) (b1 : FVec Ideal ⟨1, ![d]⟩ .f32)
    (hb1 : (⟨1, ![d]⟩ : Shape).BroadcastsInDim ⟨2, ![1, d]⟩ ![1])
    (hb2 : (⟨2, ![1, d]⟩ : Shape).BroadcastsInDim ⟨2, ![n, d]⟩ ![0, 1])
    (hz : (⟨0, ![]⟩ : Shape).BroadcastsInDim ⟨2, ![n, d]⟩ ![])
    (hrt : (⟨2, ![n, d]⟩ : Shape).ReducesTo [(1 : Fin 2)] ⟨1, ![n]⟩)
    (hr : (⟨2, ![n, d]⟩ : Shape).Reduces [(1 : Fin 2)] ⟨1, ![n]⟩) (hu : 0 < (⟨0, ![]⟩ : Shape).numel)
    (hc1 : (⟨1, ![n]⟩ : Shape).BroadcastsInDim ⟨2, ![n, 1]⟩ ![0])
    (hc0 : (⟨0, ![]⟩ : Shape).BroadcastsInDim ⟨2, ![n, 1]⟩ ![])
    (hc2 : (⟨2, ![n, 1]⟩ : Shape).BroadcastsInDim ⟨2, ![n, d]⟩ ![0, 1]) :
    Host.divf (maximumf (addf (addf (Host.dotGeneral D none (maximumf (addf (addf (Host.dotGeneral D none x Ws0) (Host.dotGeneral D none (agg x) Wn0)) (broadcastInDim ⟨2, ![n, d]⟩ ![0, 1] hb2 (broadcastInDim ⟨2, ![1, d]⟩ ![1] hb1 b0))) (broadcastInDim ⟨2, ![n, d]⟩ ![] hz (constant (F := Ideal) (⟨0, ![]⟩ : Shape) .f32 0x00000000#32))) Ws1) (Host.dotGeneral D none (agg (maximumf (addf (addf (Host.dotGeneral D none x Ws0) (Host.dotGeneral D none (agg x) Wn0)) (broadcastInDim ⟨2, ![n, d]⟩ ![0, 1] hb2 (broadcastInDim ⟨2, ![1, d]⟩ ![1] hb1 b0))) (broadcastInDim ⟨2, ![n, d]⟩ ![] hz (constant (F := Ideal) (⟨0, ![]⟩ : Shape) .f32 0x00000000#32)))) Wn1)) (broadcastInDim ⟨2, ![n, d]⟩ ![0, 1] hb2 (broadcastInDim ⟨2, ![1, d]⟩ ![1] hb1 b1))) (broadcastInDim ⟨2, ![n, d]⟩ ![] hz (constant (F := Ideal) (⟨0, ![]⟩ : Shape) .f32 0x00000000#32))) (broadcastInDim ⟨2, ![n, d]⟩ ![0, 1] hc2 (maximumf (Host.sqrt (broadcastInDim ⟨2, ![n, 1]⟩ ![0] hc1 (Host.reduceAdd (mulf (maximumf (addf (addf (Host.dotGeneral D none (maximumf (addf (addf (Host.dotGeneral D none x Ws0) (Host.dotGeneral D none (agg x) Wn0)) (broadcastInDim ⟨2, ![n, d]⟩ ![0, 1] hb2 (broadcastInDim ⟨2, ![1, d]⟩ ![1] hb1 b0))) (broadcastInDim ⟨2, ![n, d]⟩ ![] hz (constant (F := Ideal) (⟨0, ![]⟩ : Shape) .f32 0x00000000#32))) Ws1) (Host.dotGeneral D none (agg (maximumf (addf (addf (Host.dotGeneral D none x Ws0) (Host.dotGeneral D none (agg x) Wn0)) (broadcastInDim ⟨2, ![n, d]⟩ ![0, 1] hb2 (broadcastInDim ⟨2, ![1, d]⟩ ![1] hb1 b0))) (broadcastInDim ⟨2, ![n, d]⟩ ![] hz (constant (F := Ideal) (⟨0, ![]⟩ : Shape) .f32 0x00000000#32)))) Wn1)) (broadcastInDim ⟨2, ![n, d]⟩ ![0, 1] hb2 (broadcastInDim ⟨2, ![1, d]⟩ ![1] hb1 b1))) (broadcastInDim ⟨2, ![n, d]⟩ ![] hz (constant (F := Ideal) (⟨0, ![]⟩ : Shape) .f32 0x00000000#32))) (maximumf (addf (addf (Host.dotGeneral D none (maximumf (addf (addf (Host.dotGeneral D none x Ws0) (Host.dotGeneral D none (agg x) Wn0)) (broadcastInDim ⟨2, ![n, d]⟩ ![0, 1] hb2 (broadcastInDim ⟨2, ![1, d]⟩ ![1] hb1 b0))) (broadcastInDim ⟨2, ![n, d]⟩ ![] hz (constant (F := Ideal) (⟨0, ![]⟩ : Shape) .f32 0x00000000#32))) Ws1) (Host.dotGeneral D none (agg (maximumf (addf (addf (Host.dotGeneral D none x Ws0) (Host.dotGeneral D none (agg x) Wn0)) (broadcastInDim ⟨2, ![n, d]⟩ ![0, 1] hb2 (broadcastInDim ⟨2, ![1, d]⟩ ![1] hb1 b0))) (broadcastInDim ⟨2, ![n, d]⟩ ![] hz (constant (F := Ideal) (⟨0, ![]⟩ : Shape) .f32 0x00000000#32)))) Wn1)) (broadcastInDim ⟨2, ![n, d]⟩ ![0, 1] hb2 (broadcastInDim ⟨2, ![1, d]⟩ ![1] hb1 b1))) (broadcastInDim ⟨2, ![n, d]⟩ ![] hz (constant (F := Ideal) (⟨0, ![]⟩ : Shape) .f32 0x00000000#32)))) (constant (F := Ideal) (⟨0, ![]⟩ : Shape) .f32 0x00000000#32) hrt hu))) (broadcastInDim ⟨2, ![n, 1]⟩ ![] hc0 (constant (F := Ideal) (⟨0, ![]⟩ : Shape) .f32 w))))
    = net agg (Ideal.ofBits .f32 w) x Ws0 Wn0 b0 Ws1 Wn1 b1 := by
  rw [host_layer_eq D hD x (agg x) Ws0 Wn0 b0 hb1 hb2 hz,
    host_layer_eq D hD (LibGraphConv.layer true x (agg x) Ws0 b0 Wn0) (agg (LibGraphConv.layer true x (agg x) Ws0 b0 Wn0))
      Ws1 Wn1 b1 hb1 hb2 hz,
    LibRowNorm.host_eq _ w hrt hr hu hc1 hc0 hc2]
  rfl

end SageNet

end
-- ==== Proof.KernelValue.lean ====
/-
  The kernel program's result array as the two-layer network of the arrays it was launched with.

  @main is: a stretch of host operations, the first kernel region, a second stretch, the second region.
  * The first stretch computes, from the edge lists, the inverse of max(in-degree, 1) per node (`invDeg`) and the
    aggregated features of x: the features gathered along the source list (a negative source index first moved up by the
    number of nodes), added into their destination rows, each row scaled by the node's inverse degree (`aggOf`, `agg`).
    It also lays the first bias as one row. So the first region finds x, agg(x), the first layer's weights and that row
    (`V1_…`), and leaves the first layer h₁ of them in its result array (the first region's `final`).
  * The second stretch computes agg(h₁) the same way, reading h₁ from that array and the inverse degrees from where the
    first stretch left them, and lays the second bias as a row (`V3_…`). The second region leaves the row-normalised
    second layer in the program's result array.
  The aggregation is never opened: it is one function `agg src dst` of the feature array, the same in both layers.
  Together: the result array is `SageNet.net (agg src dst) …` of the launch arrays (`value`), and the run of the program
  ends with the result buffer holding it (`run`).
-/
import proofs.«140707_j69028714381804_1_alg».proof.Proof.KernelRun
import proofs.«140707_j69028714381804_1_alg».proof.Proof.RegionFinal
import proofs.«140707_j69028714381804_1_alg».proof.Proof.SageNet
import Idealize.ShloMosaic.Lib.StableHlo.Run

set_option maxRecDepth 16384

noncomputable section

namespace Cert.KernelIdeal.Net

open Cert.KernelIdeal Cert.KernelIdeal.Gen Idealize.ShloMosaic Idealize.ShloMosaic.ValueIdx Idealize.ShloMosaic.TcCoe
open Idealize.SL.Sem Idealize.ShloMosaic.StableHlo

/-- An edge list: one 32-bit node index per edge. -/
abbrev EdgeIdx : Type := (⟨S1600000, .i32⟩ : BufTy).Contents (Elt Ideal)

/-- 1 / max(in-degree, 1) per node: ones added into the destination nodes, floored at one, inverted. -/
def invDeg (dst : EdgeIdx) : FVec Ideal S100000 .f32 :=
  Host.divf (broadcastInDim S100000 ![] bcast_S_S100000 (constant S_ .f32 0x3F800000#32))
    (maximumf (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32)))
      (broadcastInDim S100000 ![] bcast_S_S100000 (constant S_ .f32 0x3F800000#32)))

/-- The neighbour aggregation with a given per-node scale: gather the rows of X along the source list, add them into
    their destination rows, scale each row. -/
def aggOf (src dst : EdgeIdx) (iv : FVec Ideal S100000 .f32) (X : FVec Ideal S100000x128 .f32) :
    FVec Ideal S100000x128 .f32 :=
  mulf (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 X
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0 iv))

/-- The mean aggregation: scaled by the inverse degree. -/
def agg (src dst : EdgeIdx) (X : FVec Ideal S100000x128 .f32) : FVec Ideal S100000x128 .f32 :=
  aggOf src dst (invDeg dst) X

variable (m : (ℓ : Loc nD τ sig) → Buf (Elt Ideal) ℓ) (ρ : Dev nD → PrngReg)

/-! ## What the first region finds on entry -/

set_option maxHeartbeats 4000000 in
theorem V1_arg (c : Dev nD) :
    V1 m ρ c main_arg0 = (m ((c : Thread nD τ).loc main_arg0)) ∧ V1 m ρ c main_arg1 = (m ((c : Thread nD τ).loc main_arg1)) ∧ V1 m ρ c main_arg2 = (m ((c : Thread nD τ).loc main_arg2))
    ∧ V1 m ρ c main_arg3 = (m ((c : Thread nD τ).loc main_arg3)) ∧ V1 m ρ c main_arg4 = (m ((c : Thread nD τ).loc main_arg4)) ∧ V1 m ρ c main_arg6 = (m ((c : Thread nD τ).loc main_arg6))
    ∧ V1 m ρ c main_arg7 = (m ((c : Thread nD τ).loc main_arg7)) ∧ V1 m ρ c main_arg8 = (m ((c : Thread nD τ).loc main_arg8)) := by
  refine ⟨?_, ?_, ?_, ?_, ?_, ?_, ?_, ?_⟩ <;>
  · show StableHlo.after hostOps0 (W0 m ρ c) (Proc.devRef .tc _) = _
    dsimp only [hostOps0]
    after_results_simp <;> rfl

set_option maxHeartbeats 4000000 in
theorem V1_v7 (c : Dev nD) : V1 m ρ c main_v7 = invDeg (m ((c : Thread nD τ).loc main_arg2)) := by
  show StableHlo.after hostOps0 (W0 m ρ c) (Proc.devRef .tc main_v7) = _
  dsimp only [hostOps0]
  after_results_simp <;> rfl

set_option maxHeartbeats 4000000 in
theorem V1_v20 (c : Dev nD) : V1 m ρ c main_v20 = agg (m ((c : Thread nD τ).loc main_arg1)) (m ((c : Thread nD τ).loc main_arg2)) (m ((c : Thread nD τ).loc main_arg0)) := by
  show StableHlo.after hostOps0 (W0 m ρ c) (Proc.devRef .tc main_v20) = _
  dsimp only [hostOps0]
  after_results_simp <;> rfl

set_option maxHeartbeats 4000000 in
theorem V1_v21 (c : Dev nD) : V1 m ρ c main_v21 = shapeCast S1x128 (m ((c : Thread nD τ).loc main_arg5)) shapeCasts_S128_S1x128 := by
  show StableHlo.after hostOps0 (W0 m ρ c) (Proc.devRef .tc main_v21) = _
  dsimp only [hostOps0]
  after_results_simp <;> rfl

/-- The first layer: what the first region leaves in its result array. -/
def h1 (c : Dev nD) : FVec Ideal S100000x128 .f32 :=
  LibGraphConv.layer true (m ((c : Thread nD τ).loc main_arg0)) (agg (m ((c : Thread nD τ).loc main_arg1)) (m ((c : Thread nD τ).loc main_arg2)) (m ((c : Thread nD τ).loc main_arg0))) (m ((c : Thread nD τ).loc main_arg3)) (m ((c : Thread nD τ).loc main_arg5)) (m ((c : Thread nD τ).loc main_arg4))

theorem L0_eq (c : Dev nD) : Region0.L (V1 m ρ) c = h1 m c := by
  obtain ⟨e0, -, -, e3, e4, -⟩ := V1_arg m ρ c
  show LibGraphConv.layer true (V1 m ρ c main_arg0) (V1 m ρ c main_v20) (V1 m ρ c main_arg3)
    (fun u => V1 m ρ c main_v21 (ix2 (0 : Fin 1) (u 0))) (V1 m ρ c main_arg4) = _
  rw [e0, e3, e4, V1_v20, V1_v21, LibGraphConv.row_of_cast]
  rfl

/-! ## What the second region finds on entry -/

theorem W2_v22 (c : Dev nD) : W2 m ρ c (Proc.devRef .tc main_v22) = h1 m c :=
  (W2_arr m ρ c 5).trans ((Region0.final (V1 m ρ) c).trans (L0_eq m ρ c))

theorem W2_arg1 (c : Dev nD) : W2 m ρ c (Proc.devRef .tc main_arg1) = (m ((c : Thread nD τ).loc main_arg1)) :=
  (W2_of_ne m ρ c main_arg1 (by decide)).trans (V1_arg m ρ c).2.1
theorem W2_arg2 (c : Dev nD) : W2 m ρ c (Proc.devRef .tc main_arg2) = (m ((c : Thread nD τ).loc main_arg2)) :=
  (W2_of_ne m ρ c main_arg2 (by decide)).trans (V1_arg m ρ c).2.2.1
theorem W2_arg6 (c : Dev nD) : W2 m ρ c (Proc.devRef .tc main_arg6) = (m ((c : Thread nD τ).loc main_arg6)) :=
  (W2_of_ne m ρ c main_arg6 (by decide)).trans (V1_arg m ρ c).2.2.2.2.2.1
theorem W2_arg7 (c : Dev nD) : W2 m ρ c (Proc.devRef .tc main_arg7) = (m ((c : Thread nD τ).loc main_arg7)) :=
  (W2_of_ne m ρ c main_arg7 (by decide)).trans (V1_arg m ρ c).2.2.2.2.2.2.1
theorem W2_arg8 (c : Dev nD) : W2 m ρ c (Proc.devRef .tc main_arg8) = (m ((c : Thread nD τ).loc main_arg8)) :=
  (W2_of_ne m ρ c main_arg8 (by decide)).trans (V1_arg m ρ c).2.2.2.2.2.2.2
theorem W2_v7 (c : Dev nD) : W2 m ρ c (Proc.devRef .tc main_v7) = invDeg (m ((c : Thread nD τ).loc main_arg2)) :=
  (W2_of_ne m ρ c main_v7 (by decide)).trans (V1_v7 m ρ c)

set_option maxHeartbeats 4000000 in
theorem V3_v22 (c : Dev nD) : V3 m ρ c main_v22 = h1 m c := by
  show StableHlo.after hostOps1 (W2 m ρ c) (Proc.devRef .tc main_v22) = _
  dsimp only [hostOps1]
  after_results_simp
  exact W2_v22 m ρ c

set_option maxHeartbeats 4000000 in
theorem V3_v35 (c : Dev nD) : V3 m ρ c main_v35 = agg (m ((c : Thread nD τ).loc main_arg1)) (m ((c : Thread nD τ).loc main_arg2)) (h1 m c) := by
  show StableHlo.after hostOps1 (W2 m ρ c) (Proc.devRef .tc main_v35) = _
  dsimp only [hostOps1]
  after_results_simp
  rw [W2_arg1, W2_arg2, W2_v7, W2_v22]
  rfl

set_option maxHeartbeats 4000000 in
theorem V3_arg6 (c : Dev nD) : V3 m ρ c main_arg6 = (m ((c : Thread nD τ).loc main_arg6)) := by
  show StableHlo.after hostOps1 (W2 m ρ c) (Proc.devRef .tc main_arg6) = _
  dsimp only [hostOps1]
  after_results_simp
  exact W2_arg6 m ρ c

set_option maxHeartbeats 4000000 in
theorem V3_arg7 (c : Dev nD) : V3 m ρ c main_arg7 = (m ((c : Thread nD τ).loc main_arg7)) := by
  show StableHlo.after hostOps1 (W2 m ρ c) (Proc.devRef .tc main_arg7) = _
  dsimp only [hostOps1]
  after_results_simp
  exact W2_arg7 m ρ c

set_option maxHeartbeats 4000000 in
theorem V3_v36 (c : Dev nD) : V3 m ρ c main_v36 = shapeCast S1x128 (m ((c : Thread nD τ).loc main_arg8)) shapeCasts_S128_S1x128 := by
  show StableHlo.after hostOps1 (W2 m ρ c) (Proc.devRef .tc main_v36) = _
  dsimp only [hostOps1]
  after_results_simp
  rw [W2_arg8]
  rfl

/-! ## The result -/

/-- The program's result array after the run, as the network of the launch arrays. -/
def result (c : Dev nD) : FVec Ideal S100000x128 .f32 :=
  SageNet.net (agg (m ((c : Thread nD τ).loc main_arg1)) (m ((c : Thread nD τ).loc main_arg2))) (Ideal.ofBits .f32 Tile.floorWord)
    (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem value (c : Dev nD) : W4 m ρ c (Proc.devRef .tc main_v37) = result m c := by
  refine (W4_arr m ρ c 5).trans ((Region1.final (V3 m ρ) c).trans ?_)
  show LibRowNorm.rowNorm (Ideal.ofBits .f32 Tile.floorWord)
    (LibGraphConv.layer true (V3 m ρ c main_v22) (V3 m ρ c main_v35) (V3 m ρ c main_arg6)
      (fun u => V3 m ρ c main_v36 (ix2 (0 : Fin 1) (u 0))) (V3 m ρ c main_arg7)) = _
  rw [V3_v22, V3_v35, V3_arg6, V3_arg7, V3_v36, LibGraphConv.row_of_cast]
  rfl

/-- Every weakly fair execution of the program terminates, nothing faulting, with the result buffer holding the network
    of the launch arrays and the arguments unchanged. -/
theorem run : θ_run defs (onTc (τ := τ) (main (F := Ideal))) ⟨m, fun _ => 0, ρ⟩ (fun r => ∀ c : Dev nD,
      r.2.mem ((c.tc : Thread nD τ).loc main_v37) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (value m ρ c), (h c).2⟩) (Cert.KernelIdeal.Named.run_named m ρ)

end Cert.KernelIdeal.Net

end
-- ==== Proof.RefValue.lean ====
/-
  The reference program's result as the same two-layer network of its arguments.

  The reference is host operations only: its run ends with the result buffer at the operations' composed term of the
  arguments. In that term the aggregation — gather along the source list, scatter-add into the destination rows, scaling
  by the inverse of max(in-degree, 1) — stands where the features of a layer stand, twice; taking it as one function
  `agg src dst` of the feature array, the term is literally the host's spelling of the network over `agg`, which is the
  network (`SageNet.host_net_eq`). The reference's matrix products are the plain ones (left columns against right rows).
-/
import proofs.«140707_j69028714381804_1_alg».proof.Proof.Gen.ReferenceIdeal.Run
import proofs.«140707_j69028714381804_1_alg».proof.Proof.SageNet

set_option maxRecDepth 16384

noncomputable section

namespace Cert.ReferenceIdeal.Net

open Cert.ReferenceIdeal Cert.ReferenceIdeal.Gen Idealize.ShloMosaic Idealize.ShloMosaic.ValueIdx Idealize.ShloMosaic.TcCoe
open Idealize.SL.Sem

/-- An edge list: one 32-bit node index per edge. -/
abbrev EdgeIdx : Type := (⟨S1600000, .i32⟩ : BufTy).Contents (Elt Ideal)

/-- The mean aggregation as the reference spells it: gather the rows of X along the source list (a negative index first
    moved up by the number of nodes), add them into their destination rows, scale each row by 1 / max(in-degree, 1). -/
def agg (src dst : EdgeIdx) (X : FVec Ideal S100000x128 .f32) : FVec Ideal S100000x128 .f32 :=
  mulf (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 X
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (Host.divf (broadcastInDim S100000 ![] bcast_S_S100000 (constant S_ .f32 0x3F800000#32))
          (maximumf (Host.scatterAdd scatter_S100000_S1600000x1_S1600000_n_0_0_1
              (broadcastInDim S100000 ![] bcast_S_S100000 (constant S_ .f32 0x00000000#32))
              (broadcastInDim S1600000x1 ![0] bcast_S1600000_S1600000x1_0 dst)
              (broadcastInDim S1600000 ![] bcast_S_S1600000 (constant S_ .f32 0x3F800000#32)))
            (broadcastInDim S100000 ![] bcast_S_S100000 (constant S_ .f32 0x3F800000#32))))))

/-- The reference's contraction is the plain one. -/
theorem dot_eq : dot_S100000x128_S128x128_S100000x128_1_0_0_1_n_n = DotDims.plain 100000 128 128 := rfl

variable (m : (ℓ : Loc nD τ sig) → Buf (Elt Ideal) ℓ)

/-- The floor of the row length: the single-precision word of 1e-12. -/
abbrev floorWord : BitVec 32 := 0x2B8CBCCC#32

/-- The reference's result, as the network of its arguments. -/
def result (c : Dev nD) : FVec Ideal S100000x128 .f32 :=
  SageNet.net (agg (m ((c.tc : Thread nD τ).loc main_arg1)) (m ((c.tc : Thread nD τ).loc main_arg2))) (Ideal.ofBits .f32 floorWord)
    (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

theorem value (c : Dev nD) : Cert.ReferenceIdeal.Value.res_main_v52 (F := Ideal) m c = result m c := by
  unfold Cert.ReferenceIdeal.Value.res_main_v52
  exact SageNet.host_net_eq dot_S100000x128_S128x128_S100000x128_1_0_0_1_n_n dot_eq (agg (m ((c.tc : Thread nD τ).loc main_arg1)) (m ((c.tc : Thread nD τ).loc main_arg2))) floorWord
    (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    bcast_S128_S1x128_1 bcast_S1x128_S100000x128_0_1 bcast_S_S100000x128 reducesTo_S100000x128_S100000_d1 (by decide) h_S_
    bcast_S100000_S100000x1_0 bcast_S_S100000x1 bcast_S100000x1_S100000x128_0_1

end Cert.ReferenceIdeal.Net

end
-- ==== Proof.lean ====
/-
  The certificate: a two-layer mean-aggregating graph network with a final row normalisation, computed by two Pallas
  kernel launches among host operations, against the same network written in plain array operations.

  Both programs compute, from node features x (100000 × 128), an edge list (src, dst) and two layers' weights and biases,
      h₁ = relu((x · Ws₀ + agg(x) · Wn₀) + b₀),   h₂ = relu((h₁ · Ws₁ + agg(h₁) · Wn₁) + b₁),   out = h₂ / max(‖row of h₂‖₂, 1e-12)
  where agg(h) gathers the rows of h along src, adds them into their dst rows and scales each row by 1 / max(in-degree, 1).
  The aggregation is host operations in both programs, the same ones, so it is carried as ONE function of the feature
  array and never opened. What differs is the dense part: the kernel computes each layer tile by tile (5000 rows at a grid
  point, the operands narrowed to bf16 before each product), the reference as whole-array operations. On the extended reals
  the narrowing is the identity and a matrix product into a zero accumulator is the sum over the contracted coordinate, so a
  tile entry IS the layer's entry in that row of the array; the tiles cover the array; and a tile holds whole rows, so the
  row length a grid point takes is the array row's. Hence both result arrays are the same function `SageNet.net` of the
  arguments, with no use of the inputs' finiteness.

  * frames: the kernel programs' are the generated frame certificates; the reference's is its generated run with the
    result dropped.
  * preserves: the ideal pass rewrote nothing.
  * algebraic: the kernel program's run with its result array named (`Cert.KernelIdeal.Net.run`), the reference's run with
    its result term read as the network (`Cert.ReferenceIdeal.Net.value`), the arguments' agreement, and the two spellings
    of the aggregation being one function (`agg_eq`).
-/
import proofs.«140707_j69028714381804_1_alg».proof.Defs
import proofs.«140707_j69028714381804_1_alg».proof.Proof.Gen.Kernel
import proofs.«140707_j69028714381804_1_alg».proof.Proof.Gen.Kernel.Skeleton
import proofs.«140707_j69028714381804_1_alg».proof.Proof.Gen.Kernel.Launch
import proofs.«140707_j69028714381804_1_alg».proof.Proof.Gen.Kernel.Points
import proofs.«140707_j69028714381804_1_alg».proof.Proof.Gen.Kernel.Frame
import proofs.«140707_j69028714381804_1_alg».proof.Proof.Gen.KernelIdeal
import proofs.«140707_j69028714381804_1_alg».proof.Proof.Gen.KernelIdeal.Skeleton
import proofs.«140707_j69028714381804_1_alg».proof.Proof.Gen.KernelIdeal.Launch
import proofs.«140707_j69028714381804_1_alg».proof.Proof.Gen.KernelIdeal.Points
import proofs.«140707_j69028714381804_1_alg».proof.Proof.Gen.KernelIdeal.Frame
import proofs.«140707_j69028714381804_1_alg».proof.Proof.Gen.ReferenceIdeal
import proofs.«140707_j69028714381804_1_alg».proof.Proof.Gen.Pre_finite_inputs
import proofs.«140707_j69028714381804_1_alg».proof.Proof.Gen.ReferenceIdeal.Run
import proofs.«140707_j69028714381804_1_alg».proof.Proof.KernelValue
import proofs.«140707_j69028714381804_1_alg».proof.Proof.RefValue
import Idealize.ShloMosaic.Adequacy
import Idealize.ShloMosaic.Init

noncomputable section

namespace Cert.Proof

open Idealize.ShloMosaic Idealize.SL.Sem

/-- The two programs spell the aggregation with the same operations over the same shapes: one function. -/
theorem agg_eq (src dst : Cert.KernelIdeal.Net.EdgeIdx) (X : FVec Ideal Cert.KernelIdeal.S100000x128 .f32) :
    Cert.ReferenceIdeal.Net.agg src dst X = Cert.KernelIdeal.Net.agg src dst X := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with their result arrays at the network of those
    arguments. -/
theorem algebraic : Cert.algebraic_KernelIdeal_ReferenceIdeal := by
  intro m ρ m' ρ' _ hagree
  refine ⟨fun c => Cert.KernelIdeal.Net.result m c, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Net.value]
  unfold Cert.ReferenceIdeal.Net.result Cert.KernelIdeal.Net.result
  rw [e0, e1, e2, e3, e4, e5, e6, e7, e8]
  exact congrArg (fun a => SageNet.net a _ _ _ _ _ _ _ _) (funext fun X => agg_eq _ _ X)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
